-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S50000x128 : Shape := ⟨2, ![50000, 128]⟩
abbrev S2000x256 : Shape := ⟨2, ![2000, 256]⟩
abbrev S2000x128 : Shape := ⟨2, ![2000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 112
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x1, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S50000, .i32⟩
  | .hbm, ⟨63, _⟩ => ⟨S850000, .i32⟩
  | .hbm, ⟨64, _⟩ => ⟨S850000, .i32⟩
  | .hbm, ⟨65, _⟩ => ⟨S_, .f32⟩
  | .hbm, ⟨66, _⟩ => ⟨S850000, .f32⟩
  | .hbm, ⟨67, _⟩ => ⟨S_, .f32⟩
  | .hbm, ⟨68, _⟩ => ⟨S50000, .f32⟩
  | .hbm, ⟨69, _⟩ => ⟨S850000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S850000, .f32⟩
  | .hbm, ⟨94, _⟩ => ⟨S_, .i32⟩
  | .hbm, ⟨95, _⟩ => ⟨S850000, .i32⟩
  | .hbm, ⟨96, _⟩ => ⟨S850000, .i1⟩
  | .hbm, ⟨97, _⟩ => ⟨S_, .i32⟩
  | .hbm, ⟨98, _⟩ => ⟨S850000, .i32⟩
  | .hbm, ⟨99, _⟩ => ⟨S850000, .i32⟩
  | .hbm, ⟨100, _⟩ => ⟨S850000, .i32⟩
  | .hbm, ⟨101, _⟩ => ⟨S850000x1, .i32⟩
  | .hbm, ⟨102, _⟩ => ⟨S850000x128, .f32⟩
  | .hbm, ⟨103, _⟩ => ⟨S850000x1, .f32⟩
  | .hbm, ⟨104, _⟩ => ⟨S850000x128, .f32⟩
  | .hbm, ⟨105, _⟩ => ⟨S850000x128, .f32⟩
  | .hbm, ⟨106, _⟩ => ⟨S_, .f32⟩
  | .hbm, ⟨107, _⟩ => ⟨S50000x128, .f32⟩
  | .hbm, ⟨108, _⟩ => ⟨S850000x1, .i32⟩
  | .hbm, ⟨109, _⟩ => ⟨S50000x128, .f32⟩
  | .hbm, ⟨110, _⟩ => ⟨S1x128, .f32⟩
  | .hbm, ⟨111, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_11 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_13 : Ref sig .tc := ⟨.hbm, 84, rfl⟩
abbrev main_v63 : Ref sig .tc := ⟨.hbm, 85, rfl⟩
abbrev main_v64 : Ref sig .tc := ⟨.hbm, 86, rfl⟩
abbrev main_c_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_15 : Ref sig .tc := ⟨.hbm, 94, rfl⟩
abbrev main_v71 : Ref sig .tc := ⟨.hbm, 95, rfl⟩
abbrev main_v72 : Ref sig .tc := ⟨.hbm, 96, rfl⟩
abbrev main_c_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  dot_S2000x256_S256x128_S2000x128_1_0_0_1_n_n_wf : DotDims.WF S2000x256 S256x128 S2000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S50000x128 : Shape := ⟨2, ![50000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x1, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000, .i32⟩
  | .hbm, ⟨67, _⟩ => ⟨S850000, .i32⟩
  | .hbm, ⟨68, _⟩ => ⟨S850000, .i32⟩
  | .hbm, ⟨69, _⟩ => ⟨S_, .f32⟩
  | .hbm, ⟨70, _⟩ => ⟨S850000, .f32⟩
  | .hbm, ⟨71, _⟩ => ⟨S_, .f32⟩
  | .hbm, ⟨72, _⟩ => ⟨S50000, .f32⟩
  | .hbm, ⟨73, _⟩ => ⟨S850000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000, .f32⟩
  | .hbm, ⟨97, _⟩ => ⟨S850000, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x128, .f32⟩
  | .hbm, ⟨107, _⟩ => ⟨S850000x1, .f32⟩
  | .hbm, ⟨108, _⟩ => ⟨S850000x128, .f32⟩
  | .hbm, ⟨109, _⟩ => ⟨S850000x128, .f32⟩
  | .hbm, ⟨110, _⟩ => ⟨S_, .f32⟩
  | .hbm, ⟨111, _⟩ => ⟨S50000x128, .f32⟩
  | .hbm, ⟨112, _⟩ => ⟨S850000x1, .i32⟩
  | .hbm, ⟨113, _⟩ => ⟨S50000x128, .f32⟩
  | .hbm, ⟨114, _⟩ => ⟨S1x128, .f32⟩
  | .hbm, ⟨115, _⟩ => ⟨S50000x128, .f32⟩
  | .hbm, ⟨116, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The graph-convolution network as one function of its arguments.

  One layer: a dense product `h = x · W`; then the symmetric-normalised neighbourhood sum over the edge list with a
  self-loop appended for every node — `deg` counts, per node, the edges that end in it; `dinv = (max deg 1)^(-1/2)`;
  edge `e` carries `dinv(src e) · dinv(dst e) · h(src e)` into row `dst e` —; then a bias row added to every row, and
  after the first layer the maximum with zero. The neighbourhood sum (`propagate`) is the host's own chain of
  operations, kept as ONE function of the feature array and of the two edge rows: both programs apply that same chain,
  so nothing below ever opens a gather or a scatter. The dense product is the plain sum over the shared axis on the
  extended reals, and the bias steps are read entry by entry.
-/
import proofs.«163067_j40003325395140_1_alg».proof.ReferenceIdeal
import Idealize.ShloMosaic.PureOps.Ideal.Laws
import Idealize.ShloMosaic.Lib.ValueIdx

noncomputable section

namespace Cert.Spec

open Idealize.ShloMosaic Idealize.ShloMosaic.ValueIdx Cert.ReferenceIdeal
open Cert.ReferenceIdeal.Facts₀ Cert.ReferenceIdeal.Facts

/-! ## The neighbourhood sum, at any float instance -/

section Graph

variable {F : FTy → Type} [FloatOps F] [Cert.ReferenceIdeal.Facts]

/-- Row 0 of the edge list: the edges' source nodes. -/
def srcRow (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list: the edges' destination nodes. -/
def dstRow (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- An edge row with the self-loops `0, 1, …, 49999` appended. -/
def withLoops (a : (⟨S800000, .i32⟩ : BufTy).Contents (Elt F)) : (⟨S850000, .i32⟩ : BufTy).Contents (Elt F) :=
  concatenate S850000 0 [⟨S800000, a⟩, ⟨S50000, (iotaInDim S50000 32 0)⟩] concatenates_S800000_S50000_S850000_d0

/-- A node index counted from the end when negative: `v + 50000` where `v < 0`, else `v`. -/
def fromEnd (v : (⟨S850000, .i32⟩ : BufTy).Contents (Elt F)) : (⟨S850000, .i32⟩ : BufTy).Contents (Elt F) :=
  select (cmpi .slt v (broadcastInDim S850000 ![] bcast_S_S850000 (constantI S_ 32 0#32)))
    (addi v (broadcastInDim S850000 ![] bcast_S_S850000 (constantI S_ 32 50000#32))) v

/-- Per node, the number of (looped) edges that end in it: ones summed into zeros at the destination rows. -/
def degree (d2 : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 d2)
    (broadcastInDim S850000 ![] bcast_S_S850000 (constant S_ .f32 0x3F800000#32))

/-- `(max deg 1)^(-1/2)` per node. -/
def invSqrtDegree (d2 : (⟨S850000, .i32⟩ : BufTy).Contents (Elt F)) : (⟨S50000, .f32⟩ : BufTy).Contents (Elt F) :=
  Host.rsqrt (maximumf (degree d2) (broadcastInDim S50000 ![] bcast_S_S50000 (constant S_ .f32 0x3F800000#32)))

/-- Per edge, `dinv(src) · dinv(dst)`. -/
def edgeWeight (s2 d2 : (⟨S850000, .i32⟩ : BufTy).Contents (Elt F)) : (⟨S850000, .f32⟩ : BufTy).Contents (Elt F) :=
  mulf
    (Host.gather gather_S50000_S850000x1_S850000_n_0_n_n_0_1_1 (invSqrtDegree d2)
      (broadcastInDim S850000x1 ![0] bcast_S850000_S850000x1_0 (fromEnd s2)))
    (Host.gather gather_S50000_S850000x1_S850000_n_0_n_n_0_1_1 (invSqrtDegree d2)
      (broadcastInDim S850000x1 ![0] bcast_S850000_S850000x1_0 (fromEnd d2)))

/-- The weighted source rows of `h` summed into the destination rows, over looped edge rows `s2`, `d2`. -/
def propagateLooped (h : (⟨S50000x128, .f32⟩ : BufTy).Contents (Elt F)) (s2 d2 : (⟨S850000, .i32⟩ : BufTy).Contents (Elt F)) :
    (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d2)
    (mulf
      (Host.gather gather_S50000x128_S850000x1_S850000x128_1_0_n_n_0_1_1128 h
        (broadcastInDim S850000x1 ![0] bcast_S850000_S850000x1_0 (fromEnd s2)))
      (broadcastInDim S850000x128 ![0, 1] bcast_S850000x1_S850000x128_0_1
        (broadcastInDim S850000x1 ![0] bcast_S850000_S850000x1_0 (edgeWeight s2 d2))))

/-- The neighbourhood sum of one layer: the self-loops appended to both edge rows, then `propagateLooped`. -/
def propagate (h : (⟨S50000x128, .f32⟩ : BufTy).Contents (Elt F)) (s d : (⟨S800000, .i32⟩ : BufTy).Contents (Elt F)) :
    (⟨S50000x128, .f32⟩ : BufTy).Contents (Elt F) :=
  propagateLooped h (withLoops s) (withLoops d)

end Graph

/-! ## The dense product and the bias steps, on the extended reals -/

/-- `x · w`: entry (p, q) is `Σ_k x (p, k) · w (k, q)`. -/
def dense (M K N : Nat) (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

/-- A 1×128 row added to every row. -/
def addRow (a : FVec Ideal S50000x128 .f32) (b : FVec Ideal S1x128 .f32) : FVec Ideal S50000x128 .f32 :=
  fun i => a i + b (ix2 0 (i 1))

/-- A 1×128 row added to every row, then the maximum with zero. -/
def addRowRelu (a : FVec Ideal S50000x128 .f32) (b : FVec Ideal S1x128 .f32) : FVec Ideal S50000x128 .f32 :=
  fun i => max (a i + b (ix2 0 (i 1))) (Ideal.ofBits .f32 0x00000000#32)

/-- A length-128 vector as a 1×128 row. -/
def asRow (b : FVec Ideal S128 .f32) : FVec Ideal S1x128 .f32 := fun i => b (ix1 (i 1))

/-- The two-layer network: dense, neighbourhood sum, bias and maximum with zero; dense, neighbourhood sum, bias. -/
def net [Cert.ReferenceIdeal.Facts] (x : FVec Ideal S50000x256 .f32) (e : (⟨S2x800000, .i32⟩ : BufTy).Contents (Elt Ideal))
    (w1 : FVec Ideal S256x128 .f32) (b1 : FVec Ideal S128 .f32) (w2 : FVec Ideal S128x128 .f32) (b2 : FVec Ideal S128 .f32) :
    FVec Ideal S50000x128 .f32 :=
  addRow (propagate (dense 50000 128 128
      (addRowRelu (propagate (dense 50000 256 128 x w1) (srcRow e) (dstRow e)) (asRow b1)) w2) (srcRow e) (dstRow e)) (asRow b2)

end Cert.Spec

end
-- ==== Proof.RefTerm.lean ====
/-
  The reference computes `Spec.net` of its arguments.

  The reference's two layers are, operation by operation, the stages of `Spec.net`: its `dot_general` is the sum over
  the shared axis (`Spec.dense`); its chain from the edge rows and the features to the scatter-add is `Spec.propagate`
  word for word; its bias, broadcast from a length-128 vector through a 1×128 row, and the maximum with a zero array are
  `Spec.addRowRelu` / `Spec.addRow` entry by entry.
-/
import proofs.«163067_j40003325395140_1_alg».proof.Proof.Gen.ReferenceIdeal.Run
import proofs.«163067_j40003325395140_1_alg».proof.Proof.Gen.ReferenceIdeal.Read
import proofs.«163067_j40003325395140_1_alg».proof.Proof.Spec

noncomputable section

namespace Cert.RefBridge

open Idealize.ShloMosaic Idealize.ShloMosaic.ValueIdx Idealize.ShloMosaic.TcCoe Idealize.SL.Sem
open Cert.ReferenceIdeal Cert.ReferenceIdeal.Gen Cert.ReferenceIdeal.Read Cert.Spec

section AnyF
variable {F : FTy → Type} [FloatOps F]

/-- The first layer's chain from the product and the edge list to the scatter-add is the neighbourhood sum. -/
theorem layer1_sum (x0 : (⟨S50000x256, .f32⟩ : BufTy).Contents (Elt F)) (x1 : (⟨S2x800000, .i32⟩ : BufTy).Contents (Elt F))
    (x2 : (⟨S256x128, .f32⟩ : BufTy).Contents (Elt F)) :
    val_main_v42 (F := F) x0 x1 x2 = propagate (val_main_v4 (F := F) x0 x2) (srcRow x1) (dstRow x1) := rfl

/-- The second layer's chain likewise. -/
theorem layer2_sum (x0 : (⟨S50000x256, .f32⟩ : BufTy).Contents (Elt F)) (x1 : (⟨S2x800000, .i32⟩ : BufTy).Contents (Elt F))
    (x2 : (⟨S256x128, .f32⟩ : BufTy).Contents (Elt F)) (x3 : (⟨S128, .f32⟩ : BufTy).Contents (Elt F))
    (x4 : (⟨S128x128, .f32⟩ : BufTy).Contents (Elt F)) :
    val_main_v85 (F := F) x0 x1 x2 x3 x4 = propagate (val_main_v47 (F := F) x0 x1 x2 x3 x4) (srcRow x1) (dstRow x1) := rfl

end AnyF

/-- The first product is the sum over the 256 shared coordinates. -/
theorem product1 (x0 : (⟨S50000x256, .f32⟩ : BufTy).Contents (Elt Ideal)) (x2 : (⟨S256x128, .f32⟩ : BufTy).Contents (Elt Ideal)) :
    val_main_v4 (F := Ideal) x0 x2 = dense 50000 256 128 x0 x2 := by
  funext i
  rw [val_main_v4_apply]
  unfold dense
  refine Finset.sum_congr rfl fun k _ => ?_
  have el : lidx_main_v4 i k = ix2 (i 0) k := funext fun a => by match a with | ⟨0, _⟩ => rfl | ⟨1, _⟩ => rfl
  have er : ridx_main_v4 i k = ix2 k (i 1) := funext fun a => by match a with | ⟨0, _⟩ => rfl | ⟨1, _⟩ => rfl
  rw [el, er]
  rfl

/-- The second product is the sum over the 128 shared coordinates. -/
theorem product2 (x0 : (⟨S50000x256, .f32⟩ : BufTy).Contents (Elt Ideal)) (x1 : (⟨S2x800000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) :
    val_main_v47 (F := Ideal) x0 x1 x2 x3 x4 = dense 50000 128 128 (val_main_v46 (F := Ideal) x0 x1 x2 x3) x4 := by
  funext i
  rw [val_main_v47_apply]
  generalize val_main_v46 (F := Ideal) x0 x1 x2 x3 = y
  unfold dense
  refine Finset.sum_congr rfl fun k _ => ?_
  have el : lidx_main_v47 i k = ix2 (i 0) k := funext fun a => by match a with | ⟨0, _⟩ => rfl | ⟨1, _⟩ => rfl
  have er : ridx_main_v47 i k = ix2 k (i 1) := funext fun a => by match a with | ⟨0, _⟩ => rfl | ⟨1, _⟩ => rfl
  rw [el, er]
  rfl

/-- The first layer's bias array, entry by entry: the vector's entry at the column. -/
theorem biasArray1_apply (x3 : (⟨S128, .f32⟩ : BufTy).Contents (Elt Ideal)) (i : S50000x128.Idx) :
    val_main_v44 (F := Ideal) x3 i = asRow x3 (ix2 0 (i 1)) := by
  rw [val_main_v44_apply, val_main_v43_apply]
  unfold asRow
  refine congrArg x3 (funext fun a => ?_)
  match a with | ⟨0, _⟩ => rfl

/-- The second layer's bias array likewise. -/
theorem biasArray2_apply (x5 : (⟨S128, .f32⟩ : BufTy).Contents (Elt Ideal)) (i : S50000x128.Idx) :
    val_main_v87 (F := Ideal) x5 i = asRow x5 (ix2 0 (i 1)) := by
  rw [val_main_v87_apply, val_main_v86_apply]
  unfold asRow
  refine congrArg x5 (funext fun a => ?_)
  match a with | ⟨0, _⟩ => rfl

/-- The zero array the maximum is taken with, entry by entry. -/
theorem zeroArray_apply (i : S50000x128.Idx) : val_main_call0_v0 (F := Ideal) i = Ideal.ofBits .f32 0x00000000#32 := by
  rw [val_main_call0_v0_apply, val_main_call0_cst_apply]
  rfl

/-- Bias, then the maximum with zero, over any array. -/
theorem biasRelu_eq (a : (⟨S50000x128, .f32⟩ : BufTy).Contents (Elt Ideal)) (x3 : (⟨S128, .f32⟩ : BufTy).Contents (Elt Ideal)) :
    maximumf (addf a (val_main_v44 (F := Ideal) x3)) (val_main_call0_v0 (F := Ideal)) = addRowRelu a (asRow x3) := by
  funext i
  rw [maximumf_apply, addf_apply, biasArray1_apply, zeroArray_apply]
  rfl

/-- Bias over any array. -/
theorem bias_eq (a : (⟨S50000x128, .f32⟩ : BufTy).Contents (Elt Ideal)) (x5 : (⟨S128, .f32⟩ : BufTy).Contents (Elt Ideal)) :
    addf a (val_main_v87 (F := Ideal) x5) = addRow a (asRow x5) := by
  funext i
  rw [addf_apply, biasArray2_apply]
  rfl

/-- The bias and the maximum with zero of the first layer. -/
theorem bias1 (x0 : (⟨S50000x256, .f32⟩ : BufTy).Contents (Elt Ideal)) (x1 : (⟨S2x800000, .i32⟩ : BufTy).Contents (Elt Ideal))
    (x2 : (⟨S256x128, .f32⟩ : BufTy).Contents (Elt Ideal)) (x3 : (⟨S128, .f32⟩ : BufTy).Contents (Elt Ideal)) :
    val_main_v46 (F := Ideal) x0 x1 x2 x3 = addRowRelu (val_main_v42 (F := Ideal) x0 x1 x2) (asRow x3) :=
  biasRelu_eq _ _

/-- The bias of the second layer. -/
theorem bias2 (x0 : (⟨S50000x256, .f32⟩ : BufTy).Contents (Elt Ideal)) (x1 : (⟨S2x800000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v88 (F := Ideal) x0 x1 x2 x3 x4 x5 = addRow (val_main_v85 (F := Ideal) x0 x1 x2 x3 x4) (asRow x5) :=
  bias_eq _ _

/-- The reference's result stage is the network of its six arguments. -/
theorem stage_eq_net (x0 : (⟨S50000x256, .f32⟩ : BufTy).Contents (Elt Ideal)) (x1 : (⟨S2x800000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v88 (F := Ideal) x0 x1 x2 x3 x4 x5 = net x0 x1 x2 x3 x4 x5 := by
  rw [bias2, layer2_sum, product2, bias1, layer1_sum, product1]
  rfl

/-- The term the reference's run ends at is the network of the launch contents of its arguments. -/
theorem result_eq_net (m : (ℓ : Loc nD τ sig) → Buf (Elt Ideal) ℓ) (c : Dev nD) :
    Cert.ReferenceIdeal.Value.res_main_v88 m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (val_main_v88_eq m c).trans (stage_eq_net _ _ _ _ _ _)

end Cert.RefBridge

end
-- ==== Proof.HostStretches.lean ====
/-
  The host operations between the launches, read at the buffers the launches take.

  Before the first launch the host cuts the edge list into its source and destination rows. Between the first and the
  second launch, and again between the third and the fourth, it runs the neighbourhood sum on the product the launch
  before left (with the edge rows cut at the start) and lays the bias vector out as a 1×128 row; the chain of operations
  is `Spec.propagate` word for word, so it is named and never opened. Every other buffer a later stretch or launch
  reads is left as it was.
-/
import proofs.«163067_j40003325395140_1_alg».proof.Proof.Gen.KernelIdeal.Launch
import proofs.«163067_j40003325395140_1_alg».proof.Proof.Gen.KernelIdeal
import proofs.«163067_j40003325395140_1_alg».proof.Proof.Gen.ReferenceIdeal
import proofs.«163067_j40003325395140_1_alg».proof.Proof.Spec
import Idealize.ShloMosaic.Lib.StableHlo.Run

set_option maxRecDepth 16384

noncomputable section

namespace Cert.KernelValue.Host

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

/-! ## Before the first launch -/

theorem sourceRow : after hostOps0 W (Proc.devRef .tc main_v1) = Cert.Spec.srcRow (W (Proc.devRef .tc main_arg1)) := by
  after_results_simp <;> rfl

theorem destinationRow : after hostOps0 W (Proc.devRef .tc main_v3) = Cert.Spec.dstRow (W (Proc.devRef .tc main_arg1)) := by
  after_results_simp <;> rfl

theorem keeps0_arg0 : after hostOps0 W (Proc.devRef .tc main_arg0) = W (Proc.devRef .tc main_arg0) := by after_results_simp <;> rfl
theorem keeps0_arg2 : after hostOps0 W (Proc.devRef .tc main_arg2) = W (Proc.devRef .tc main_arg2) := by after_results_simp <;> rfl
theorem keeps0_arg3 : after hostOps0 W (Proc.devRef .tc main_arg3) = W (Proc.devRef .tc main_arg3) := by after_results_simp <;> rfl
theorem keeps0_arg4 : after hostOps0 W (Proc.devRef .tc main_arg4) = W (Proc.devRef .tc main_arg4) := by after_results_simp <;> rfl
theorem keeps0_arg5 : after hostOps0 W (Proc.devRef .tc main_arg5) = W (Proc.devRef .tc main_arg5) := by after_results_simp <;> rfl

/-! ## Between the first and the second launch -/

theorem sum1 : after hostOps1 W (Proc.devRef .tc main_v42)
    = Cert.Spec.propagate (W (Proc.devRef .tc main_v4)) (W (Proc.devRef .tc main_v1)) (W (Proc.devRef .tc main_v3)) := by
  after_results_simp <;> rfl

theorem row1 : after hostOps1 W (Proc.devRef .tc main_v43) = shapeCast _ (W (Proc.devRef .tc main_arg3)) shapeCasts_S128_S1x128 := by
  after_results_simp <;> rfl

theorem keeps1_v1 : after hostOps1 W (Proc.devRef .tc main_v1) = W (Proc.devRef .tc main_v1) := by after_results_simp <;> rfl
theorem keeps1_v3 : after hostOps1 W (Proc.devRef .tc main_v3) = W (Proc.devRef .tc main_v3) := by after_results_simp <;> rfl
theorem keeps1_arg4 : after hostOps1 W (Proc.devRef .tc main_arg4) = W (Proc.devRef .tc main_arg4) := by after_results_simp <;> rfl
theorem keeps1_arg5 : after hostOps1 W (Proc.devRef .tc main_arg5) = W (Proc.devRef .tc main_arg5) := by after_results_simp <;> rfl

/-! ## Between the third and the fourth launch -/

theorem sum2 : after hostOps3 W (Proc.devRef .tc main_v83)
    = Cert.Spec.propagate (W (Proc.devRef .tc main_v45)) (W (Proc.devRef .tc main_v1)) (W (Proc.devRef .tc main_v3)) := by
  after_results_simp <;> rfl

theorem row2 : after hostOps3 W (Proc.devRef .tc main_v84) = shapeCast _ (W (Proc.devRef .tc main_arg5)) shapeCasts_S128_S1x128 := by
  after_results_simp <;> rfl

end Cert.KernelValue.Host

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.LaunchProduct1.lean ====
/-
  The first launch (the dense product of the node features with the first weight matrix) as one function of its two
  argument arrays.

  The launch walks the 50000 rows in 25 blocks of 2000; at block `t` the body reads rows `2000 t … 2000 t + 1999` of the
  feature array and the whole weight matrix, and writes back their product accumulated into a zero array. On the extended
  reals the change of format before the product is the identity and the product's entry (p, q) is the sum over the shared
  axis, so every block is its own rows of the array-wide product, and the 25 blocks cover the result array.
-/
import proofs.«163067_j40003325395140_1_alg».proof.Proof.Gen.KernelIdeal.Frame
import proofs.«163067_j40003325395140_1_alg».proof.Proof.Spec
import proofs.«163067_j40003325395140_1_alg».proof.Proof.LibPlainDot
import Idealize.ShloMosaic.Lib.Pipeline.Value
import Idealize.ShloMosaic.Lib.ValueIdx

set_option maxRecDepth 16384

noncomputable section

namespace Cert.KernelValue.Product1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- The body's payload at entry (p, q): the sum over the 256 shared coordinates. -/
theorem payload_apply (x0 : Vec Ideal S2000x256 .f32) (x1 : Vec Ideal S256x128 .f32) (p : Fin 2000) (q : Fin 128) :
    k0_pay1 x0 x1 (ix2 p q) = ∑ k : Fin 256, x0 (ix2 p k) * x1 (ix2 k q) := by
  unfold k0_pay1
  exact PlainDot.matmul_zero_apply 2000 256 128 (truncf .bf16 x0 bitsLt_bf16_f32) (truncf .bf16 x1 bitsLt_bf16_f32) p q

/-- The launch's first argument array, at its literal type. -/
abbrev features (c : Dev nD) : FVec Ideal S50000x256 .f32 := V c main_arg0
/-- The launch's second argument array, at its literal type. -/
abbrev weights (c : Dev nD) : FVec Ideal S256x128 .f32 := V c main_arg2

/-- The three index maps over the grid: the input block moves with the output block down the rows, the weight matrix
    has one block, and the output's row-block index stays below 25. -/
theorem blockIndices : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) ≤ 24 ∧ win0_2.index t (1 : Fin 2) = 0 :=
  (by decide +kernel : ∀ t : Fin grid0.N, _)

/-- Every one of the 25 row blocks is some grid point's. -/
theorem blockOnto : ∀ q0 : Fin 25, ∃ t : Fin cfg0.N, win0_2.index t = ![q0.val, 0] :=
  (by decide +kernel : ∀ q0 : Fin 25, ∃ t : Fin grid0.N, win0_2.index t = ![q0.val, 0])

/-- What grid point `t` writes back is block `t` of the array-wide product of the two arrays as the launch finds them. -/
theorem flushed_eq (c : Dev nD) (t : Fin cfg0.N) :
    (dat0 V c).flushed 2 t = ((cfg0.win 2).blk t).view.read (Elt Ideal) (Cert.Spec.dense 50000 256 128 (features V c) (weights V c)) := by
  show (cfg0.win 2).cut (grid0.coords t) ((dat0 V c).after 2 t) = _
  rw [after0_2]
  unfold out0_2
  rw [View.canon_unit_zero zeroOffsets]
  simp only [View.ld_unit_zero (S := S2000x256) zeroOffsets, View.ld_unit_zero (S := S256x128) zeroOffsets]
  obtain ⟨e0, e1, e2, e3, e4, e5⟩ := blockIndices t
  funext j
  obtain ⟨p, q, rfl⟩ : ∃ (p : Fin 2000) (q : Fin 128), j = ix2 p q := ⟨j 0, j 1, eq_ix2 j⟩
  refine (payload_apply _ _ p q).trans ?_
  show ∑ k : Fin 256, features V c (((cfg0.win 0).blk t).view.emb (ix2 p k)) * weights V c (((cfg0.win 1).blk t).view.emb (ix2 k q))
    = ∑ k : Fin 256, features V c (ix2 ((((cfg0.win 2).blk t).view.emb (ix2 p q)) 0) k) * weights V c (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [h0, h1]
  rfl

/-- An entry of the result array is in point `t`'s block iff each coordinate is in the block's range on its axis. -/
theorem mem_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

/-- Row `r` of the result is in the block of the point whose row-block index is `r / 2000`. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := blockOnto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the launch: the array-wide product of the two arrays as the launch finds them. -/
theorem final (c : Dev nD) : (dat0 V c).arrAt 2 cfg0.N = Cert.Spec.dense 50000 256 128 (features V c) (weights V c) :=
  (dat0 V c).arrAt_eq_of_cover 2 _ (fun t _ => flushed_eq V c t) covered

end Cert.KernelValue.Product1

end
-- ==== Proof.LaunchBiasMax.lean ====
/-
  The second launch (bias, then the maximum with zero) as one function of its two argument arrays.

  The launch walks the 50000 rows in 25 blocks of 2000; at block `t` the body reads rows `2000 t … 2000 t + 1999` of the
  first array and the whole 1×128 second array, and writes back, at entry (p, q) of the block, the first array's entry
  plus the second array's entry in column q, or zero where that is larger. Every block therefore is its own rows of ONE array-wide function, and the 25
  blocks cover the result array.
-/
import proofs.«163067_j40003325395140_1_alg».proof.Proof.Gen.KernelIdeal.Frame
import proofs.«163067_j40003325395140_1_alg».proof.Proof.Spec
import Idealize.ShloMosaic.Lib.Pipeline.Value
import Idealize.ShloMosaic.Lib.ValueIdx

set_option maxRecDepth 16384

noncomputable section

namespace Cert.KernelValue.BiasMax

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- The body's payload at entry (p, q): the block's entry plus the row's entry in column q, or zero where that is larger. -/
theorem payload_apply (x0 : Vec Ideal S2000x128 .f32) (x1 : Vec Ideal S1x128 .f32) (p : Fin 2000) (q : Fin 128) :
    k1_pay1 x0 x1 (ix2 p q) = max (x0 (ix2 p q) + x1 (ix2 0 q)) (Ideal.ofBits .f32 0x00000000#32) := by
  unfold k1_pay1
  rw [shapeCast_self, shapeCast_self, shapeCast_self, maximumf_apply, addf_apply]
  refine congrArg (fun z => max (x0 (ix2 p q) + z) _) (broadcastTo_apply x1 _ (ix2 p q) (ix2 0 q) fun a => ?_)
  match a with
  | ⟨0, _⟩ => show (0 : Nat) = if (1 : Nat) = 1 then 0 else _; rw [if_pos rfl]
  | ⟨1, _⟩ => show q.val = if (128 : Nat) = 1 then 0 else q.val; rw [if_neg (by decide)]

/-- The launch's first argument array, at its literal type. -/
abbrev features (c : Dev nD) : FVec Ideal S50000x128 .f32 := V c main_v42
/-- The launch's second argument array, at its literal type. -/
abbrev biasRow (c : Dev nD) : FVec Ideal S1x128 .f32 := V c main_v43

/-- The three index maps over the grid: the input block moves with the output block down the rows, the row array has
    one block, and the output's row-block index stays below 25. -/
theorem blockIndices : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) ≤ 24 ∧ win1_2.index t (1 : Fin 2) = 0 :=
  (by decide +kernel : ∀ t : Fin grid1.N, _)

/-- Every one of the 25 row blocks is some grid point's. -/
theorem blockOnto : ∀ q0 : Fin 25, ∃ t : Fin cfg1.N, win1_2.index t = ![q0.val, 0] :=
  (by decide +kernel : ∀ q0 : Fin 25, ∃ t : Fin grid1.N, win1_2.index t = ![q0.val, 0])

/-- What grid point `t` writes back is block `t` of the array-wide function of the two arrays as the launch finds them. -/
theorem flushed_eq (c : Dev nD) (t : Fin cfg1.N) :
    (dat1 V c).flushed 2 t = ((cfg1.win 2).blk t).view.read (Elt Ideal) (Cert.Spec.addRowRelu (features V c) (biasRow V c)) := by
  show (cfg1.win 2).cut (grid1.coords t) ((dat1 V c).after 2 t) = _
  rw [after1_2]
  unfold out1_2
  rw [View.canon_unit_zero zeroOffsets]
  simp only [View.ld_unit_zero (S := S2000x128) zeroOffsets, View.ld_unit_zero (S := S1x128) zeroOffsets]
  obtain ⟨e0, e1, e2, e3, e4, e5⟩ := blockIndices t
  funext j
  obtain ⟨p, q, rfl⟩ : ∃ (p : Fin 2000) (q : Fin 128), j = ix2 p q := ⟨j 0, j 1, eq_ix2 j⟩
  refine (payload_apply _ _ p q).trans ?_
  show max (features V c (((cfg1.win 0).blk t).view.emb (ix2 p q)) + biasRow V c (((cfg1.win 1).blk t).view.emb (ix2 0 q))) (Ideal.ofBits .f32 0x00000000#32)
    = max (features V c (((cfg1.win 2).blk t).view.emb (ix2 p q)) + biasRow V c (ix2 0 ((((cfg1.win 2).blk t).view.emb (ix2 p q)) 1))) (Ideal.ofBits .f32 0x00000000#32)
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : ((cfg1.win 1).blk t).view.emb (ix2 0 q) = ix2 0 ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]
  rfl

/-- An entry of the result array is in point `t`'s block iff each coordinate is in the block's range on its axis. -/
theorem mem_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v44).slice (win1_2.rect t)).set ↔ _
  rw [View.set_slice_whole, Rect.mem_set_unit]
  exact Iff.rfl

/-- Row `r` of the result is in the block of the point whose row-block index is `r / 2000`. -/
theorem covered (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := blockOnto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The result array after the launch: the array-wide function of the two arrays as the launch finds them. -/
theorem final (c : Dev nD) : (dat1 V c).arrAt 2 cfg1.N = Cert.Spec.addRowRelu (features V c) (biasRow V c) :=
  (dat1 V c).arrAt_eq_of_cover 2 _ (fun t _ => flushed_eq V c t) covered

end Cert.KernelValue.BiasMax

end
-- ==== Proof.LaunchProduct2.lean ====
/-
  The third launch (the dense product of the first layer's output with the second weight matrix) as one function of its
  two argument arrays.

  The launch walks the 50000 rows in 25 blocks of 2000; at block `t` the body reads rows `2000 t … 2000 t + 1999` of the
  first array and the whole weight matrix, and writes back their product accumulated into a zero array. On the extended
  reals the change of format before the product is the identity and the product's entry (p, q) is the sum over the shared
  axis, so every block is its own rows of the array-wide product, and the 25 blocks cover the result array.
-/
import proofs.«163067_j40003325395140_1_alg».proof.Proof.Gen.KernelIdeal.Frame
import proofs.«163067_j40003325395140_1_alg».proof.Proof.Spec
import proofs.«163067_j40003325395140_1_alg».proof.Proof.LibPlainDot
import Idealize.ShloMosaic.Lib.Pipeline.Value
import Idealize.ShloMosaic.Lib.ValueIdx

set_option maxRecDepth 16384

noncomputable section

namespace Cert.KernelValue.Product2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- The body's payload at entry (p, q): the sum over the 128 shared coordinates. -/
theorem payload_apply (x0 : Vec Ideal S2000x128 .f32) (x1 : Vec Ideal S128x128 .f32) (p : Fin 2000) (q : Fin 128) :
    k2_pay1 x0 x1 (ix2 p q) = ∑ k : Fin 128, x0 (ix2 p k) * x1 (ix2 k q) := by
  unfold k2_pay1
  rw [shapeCast_self]
  exact PlainDot.matmul_zero_apply 2000 128 128 (truncf .bf16 x0 bitsLt_bf16_f32) (truncf .bf16 x1 bitsLt_bf16_f32) p q

/-- The launch's first argument array, at its literal type. -/
abbrev features (c : Dev nD) : FVec Ideal S50000x128 .f32 := V c main_v44
/-- The launch's second argument array, at its literal type. -/
abbrev weights (c : Dev nD) : FVec Ideal S128x128 .f32 := V c main_arg4

/-- The three index maps over the grid: the input block moves with the output block down the rows, the weight matrix
    has one block, and the output's row-block index stays below 25. -/
theorem blockIndices : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (0 : Fin 2) ≤ 24 ∧ win2_2.index t (1 : Fin 2) = 0 :=
  (by decide +kernel : ∀ t : Fin grid2.N, _)

/-- Every one of the 25 row blocks is some grid point's. -/
theorem blockOnto : ∀ q0 : Fin 25, ∃ t : Fin cfg2.N, win2_2.index t = ![q0.val, 0] :=
  (by decide +kernel : ∀ q0 : Fin 25, ∃ t : Fin grid2.N, win2_2.index t = ![q0.val, 0])

/-- What grid point `t` writes back is block `t` of the array-wide product of the two arrays as the launch finds them. -/
theorem flushed_eq (c : Dev nD) (t : Fin cfg2.N) :
    (dat2 V c).flushed 2 t = ((cfg2.win 2).blk t).view.read (Elt Ideal) (Cert.Spec.dense 50000 128 128 (features V c) (weights V c)) := by
  show (cfg2.win 2).cut (grid2.coords t) ((dat2 V c).after 2 t) = _
  rw [after2_2]
  unfold out2_2
  rw [View.canon_unit_zero zeroOffsets]
  simp only [View.ld_unit_zero (S := S2000x128) zeroOffsets, View.ld_unit_zero (S := S128x128) zeroOffsets]
  obtain ⟨e0, e1, e2, e3, e4, e5⟩ := blockIndices t
  funext j
  obtain ⟨p, q, rfl⟩ : ∃ (p : Fin 2000) (q : Fin 128), j = ix2 p q := ⟨j 0, j 1, eq_ix2 j⟩
  refine (payload_apply _ _ p q).trans ?_
  show ∑ k : Fin 128, features V c (((cfg2.win 0).blk t).view.emb (ix2 p k)) * weights V c (((cfg2.win 1).blk t).view.emb (ix2 k q))
    = ∑ k : Fin 128, features V c (ix2 ((((cfg2.win 2).blk t).view.emb (ix2 p q)) 0) k) * weights V c (ix2 k ((((cfg2.win 2).blk t).view.emb (ix2 p q)) 1))
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [h0, h1]
  rfl

/-- An entry of the result array is in point `t`'s block iff each coordinate is in the block's range on its axis. -/
theorem mem_block (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v45).slice (win2_2.rect t)).set ↔ _
  rw [View.set_slice_whole, Rect.mem_set_unit]
  exact Iff.rfl

/-- Row `r` of the result is in the block of the point whose row-block index is `r / 2000`. -/
theorem covered (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := blockOnto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The result array after the launch: the array-wide product of the two arrays as the launch finds them. -/
theorem final (c : Dev nD) : (dat2 V c).arrAt 2 cfg2.N = Cert.Spec.dense 50000 128 128 (features V c) (weights V c) :=
  (dat2 V c).arrAt_eq_of_cover 2 _ (fun t _ => flushed_eq V c t) covered

end Cert.KernelValue.Product2

end
-- ==== Proof.LaunchBias.lean ====
/-
  The fourth launch (bias) as one function of its two argument arrays.

  The launch walks the 50000 rows in 25 blocks of 2000; at block `t` the body reads rows `2000 t … 2000 t + 1999` of the
  first array and the whole 1×128 second array, and writes back, at entry (p, q) of the block, the first array's entry
  plus the second array's entry in column q. Every block therefore is its own rows of ONE array-wide function, and the 25
  blocks cover the result array.
-/
import proofs.«163067_j40003325395140_1_alg».proof.Proof.Gen.KernelIdeal.Frame
import proofs.«163067_j40003325395140_1_alg».proof.Proof.Spec
import Idealize.ShloMosaic.Lib.Pipeline.Value
import Idealize.ShloMosaic.Lib.ValueIdx

set_option maxRecDepth 16384

noncomputable section

namespace Cert.KernelValue.Bias

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- The body's payload at entry (p, q): the block's entry plus the row's entry in column q. -/
theorem payload_apply (x0 : Vec Ideal S2000x128 .f32) (x1 : Vec Ideal S1x128 .f32) (p : Fin 2000) (q : Fin 128) :
    k3_pay1 x0 x1 (ix2 p q) = x0 (ix2 p q) + x1 (ix2 0 q) := by
  unfold k3_pay1
  rw [shapeCast_self, shapeCast_self, shapeCast_self, addf_apply]
  refine congrArg (fun z => x0 (ix2 p q) + z) (broadcastTo_apply x1 _ (ix2 p q) (ix2 0 q) fun a => ?_)
  match a with
  | ⟨0, _⟩ => show (0 : Nat) = if (1 : Nat) = 1 then 0 else _; rw [if_pos rfl]
  | ⟨1, _⟩ => show q.val = if (128 : Nat) = 1 then 0 else q.val; rw [if_neg (by decide)]

/-- The launch's first argument array, at its literal type. -/
abbrev features (c : Dev nD) : FVec Ideal S50000x128 .f32 := V c main_v83
/-- The launch's second argument array, at its literal type. -/
abbrev biasRow (c : Dev nD) : FVec Ideal S1x128 .f32 := V c main_v84

/-- The three index maps over the grid: the input block moves with the output block down the rows, the row array has
    one block, and the output's row-block index stays below 25. -/
theorem blockIndices : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (0 : Fin 2) ≤ 24 ∧ win3_2.index t (1 : Fin 2) = 0 :=
  (by decide +kernel : ∀ t : Fin grid3.N, _)

/-- Every one of the 25 row blocks is some grid point's. -/
theorem blockOnto : ∀ q0 : Fin 25, ∃ t : Fin cfg3.N, win3_2.index t = ![q0.val, 0] :=
  (by decide +kernel : ∀ q0 : Fin 25, ∃ t : Fin grid3.N, win3_2.index t = ![q0.val, 0])

/-- What grid point `t` writes back is block `t` of the array-wide function of the two arrays as the launch finds them. -/
theorem flushed_eq (c : Dev nD) (t : Fin cfg3.N) :
    (dat3 V c).flushed 2 t = ((cfg3.win 2).blk t).view.read (Elt Ideal) (Cert.Spec.addRow (features V c) (biasRow V c)) := by
  show (cfg3.win 2).cut (grid3.coords t) ((dat3 V c).after 2 t) = _
  rw [after3_2]
  unfold out3_2
  rw [View.canon_unit_zero zeroOffsets]
  simp only [View.ld_unit_zero (S := S2000x128) zeroOffsets, View.ld_unit_zero (S := S1x128) zeroOffsets]
  obtain ⟨e0, e1, e2, e3, e4, e5⟩ := blockIndices t
  funext j
  obtain ⟨p, q, rfl⟩ : ∃ (p : Fin 2000) (q : Fin 128), j = ix2 p q := ⟨j 0, j 1, eq_ix2 j⟩
  refine (payload_apply _ _ p q).trans ?_
  show features V c (((cfg3.win 0).blk t).view.emb (ix2 p q)) + biasRow V c (((cfg3.win 1).blk t).view.emb (ix2 0 q))
    = features V c (((cfg3.win 2).blk t).view.emb (ix2 p q)) + biasRow V c (ix2 0 ((((cfg3.win 2).blk t).view.emb (ix2 p q)) 1))
  have h0 : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = win3_2.index t (1 : Fin 2) * 128 + 1 * q.val; omega
  have h1 : ((cfg3.win 1).blk t).view.emb (ix2 0 q) = ix2 0 ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [h0, h1]
  rfl

/-- An entry of the result array is in point `t`'s block iff each coordinate is in the block's range on its axis. -/
theorem mem_block (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v85).slice (win3_2.rect t)).set ↔ _
  rw [View.set_slice_whole, Rect.mem_set_unit]
  exact Iff.rfl

/-- Row `r` of the result is in the block of the point whose row-block index is `r / 2000`. -/
theorem covered (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := blockOnto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The result array after the launch: the array-wide function of the two arrays as the launch finds them. -/
theorem final (c : Dev nD) : (dat3 V c).arrAt 2 cfg3.N = Cert.Spec.addRow (features V c) (biasRow V c) :=
  (dat3 V c).arrAt_eq_of_cover 2 _ (fun t _ => flushed_eq V c t) covered

end Cert.KernelValue.Bias

end
-- ==== Proof.KernelValue.lean ====
/-
  The kernel's result is `Spec.net` of its arguments.

  The buffer contents at the seven boundaries between the host stretches and the launches are followed from the launch
  memory to the result: the edge rows are cut before the first launch and reach every later stretch untouched; each
  launch leaves its result array at the array-wide function of its two argument arrays; each of the two long host
  stretches leaves the neighbourhood sum of the product before it and the bias vector as a 1×128 row; the arguments a
  later launch reads are as launched.
-/
import proofs.«163067_j40003325395140_1_alg».proof.Proof.Gen.KernelIdeal.Frame
import proofs.«163067_j40003325395140_1_alg».proof.Proof.Spec
import proofs.«163067_j40003325395140_1_alg».proof.Proof.HostStretches
import proofs.«163067_j40003325395140_1_alg».proof.Proof.LaunchProduct1
import proofs.«163067_j40003325395140_1_alg».proof.Proof.LaunchBiasMax
import proofs.«163067_j40003325395140_1_alg».proof.Proof.LaunchProduct2
import proofs.«163067_j40003325395140_1_alg».proof.Proof.LaunchBias
import Idealize.ShloMosaic.Lib.Pipeline.Value
import Idealize.ShloMosaic.Lib.ValueIdx

set_option maxRecDepth 16384

noncomputable section

namespace Cert.KernelValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- A length-128 vector laid out as a 1×128 array holds the vector's entry q in column q. -/
theorem reshape_row (b : FVec Ideal S128 .f32) : shapeCast S1x128 b shapeCasts_S128_S1x128 = Cert.Spec.asRow b := by
  funext i
  unfold Cert.Spec.asRow
  refine shapeCast_apply b shapeCasts_S128_S1x128 i (ix1 (i 1)) ?_
  rewrite [Shape.rowMajor_val_one, Shape.rowMajor_val_two]
  have h0 : (i 0).val < 1 := (i 0).isLt
  show (i 1).val = (i 0).val * 128 + (i 1).val
  omega

/-! ## Boundary 1: after the edge list is cut -/

theorem at1_arg0 (c : Dev nD) : W1 m ρ c (Proc.devRef .tc main_arg0) = m ((c : Thread nD τ).loc main_arg0) := Host.keeps0_arg0 (W0 m ρ c)
theorem at1_arg2 (c : Dev nD) : W1 m ρ c (Proc.devRef .tc main_arg2) = m ((c : Thread nD τ).loc main_arg2) := Host.keeps0_arg2 (W0 m ρ c)
theorem at1_arg3 (c : Dev nD) : W1 m ρ c (Proc.devRef .tc main_arg3) = m ((c : Thread nD τ).loc main_arg3) := Host.keeps0_arg3 (W0 m ρ c)
theorem at1_arg4 (c : Dev nD) : W1 m ρ c (Proc.devRef .tc main_arg4) = m ((c : Thread nD τ).loc main_arg4) := Host.keeps0_arg4 (W0 m ρ c)
theorem at1_arg5 (c : Dev nD) : W1 m ρ c (Proc.devRef .tc main_arg5) = m ((c : Thread nD τ).loc main_arg5) := Host.keeps0_arg5 (W0 m ρ c)
theorem at1_src (c : Dev nD) : W1 m ρ c (Proc.devRef .tc main_v1) = Cert.Spec.srcRow (m ((c : Thread nD τ).loc main_arg1)) := Host.sourceRow (W0 m ρ c)
theorem at1_dst (c : Dev nD) : W1 m ρ c (Proc.devRef .tc main_v3) = Cert.Spec.dstRow (m ((c : Thread nD τ).loc main_arg1)) := Host.destinationRow (W0 m ρ c)

/-! ## Boundary 2: after the first launch -/

theorem at2_product (c : Dev nD) : W2 m ρ c (Proc.devRef .tc main_v4)
    = Cert.Spec.dense 50000 256 128 (m ((c : Thread nD τ).loc main_arg0)) (m ((c : Thread nD τ).loc main_arg2)) :=
  (W2_arr m ρ c 2).trans ((Product1.final (V1 m ρ) c).trans
    (congrArg₂ (Cert.Spec.dense 50000 256 128) (at1_arg0 m ρ c) (at1_arg2 m ρ c)))
theorem at2_src (c : Dev nD) : W2 m ρ c (Proc.devRef .tc main_v1) = Cert.Spec.srcRow (m ((c : Thread nD τ).loc main_arg1)) :=
  (W2_of_ne m ρ c main_v1 (by decide)).trans (at1_src m ρ c)
theorem at2_dst (c : Dev nD) : W2 m ρ c (Proc.devRef .tc main_v3) = Cert.Spec.dstRow (m ((c : Thread nD τ).loc main_arg1)) :=
  (W2_of_ne m ρ c main_v3 (by decide)).trans (at1_dst m ρ c)
theorem at2_arg3 (c : Dev nD) : W2 m ρ c (Proc.devRef .tc main_arg3) = m ((c : Thread nD τ).loc main_arg3) :=
  (W2_of_ne m ρ c main_arg3 (by decide)).trans (at1_arg3 m ρ c)
theorem at2_arg4 (c : Dev nD) : W2 m ρ c (Proc.devRef .tc main_arg4) = m ((c : Thread nD τ).loc main_arg4) :=
  (W2_of_ne m ρ c main_arg4 (by decide)).trans (at1_arg4 m ρ c)
theorem at2_arg5 (c : Dev nD) : W2 m ρ c (Proc.devRef .tc main_arg5) = m ((c : Thread nD τ).loc main_arg5) :=
  (W2_of_ne m ρ c main_arg5 (by decide)).trans (at1_arg5 m ρ c)

/-! ## Boundary 3: after the first neighbourhood sum -/

/-- The first layer before its bias: the neighbourhood sum of the first product. -/
abbrev layer1Sum (c : Dev nD) : FVec Ideal S50000x128 .f32 :=
  Cert.Spec.propagate (Cert.Spec.dense 50000 256 128 (m ((c : Thread nD τ).loc main_arg0)) (m ((c : Thread nD τ).loc main_arg2)))
    (Cert.Spec.srcRow (m ((c : Thread nD τ).loc main_arg1))) (Cert.Spec.dstRow (m ((c : Thread nD τ).loc main_arg1)))

theorem at3_sum (c : Dev nD) : W3 m ρ c (Proc.devRef .tc main_v42) = layer1Sum m c :=
  (Host.sum1 (W2 m ρ c)).trans (by rw [at2_product m ρ c, at2_src m ρ c, at2_dst m ρ c])
theorem at3_row (c : Dev nD) : W3 m ρ c (Proc.devRef .tc main_v43) = Cert.Spec.asRow (m ((c : Thread nD τ).loc main_arg3)) :=
  (Host.row1 (W2 m ρ c)).trans (by rw [at2_arg3 m ρ c]; exact reshape_row _)
theorem at3_src (c : Dev nD) : W3 m ρ c (Proc.devRef .tc main_v1) = Cert.Spec.srcRow (m ((c : Thread nD τ).loc main_arg1)) :=
  (Host.keeps1_v1 (W2 m ρ c)).trans (at2_src m ρ c)
theorem at3_dst (c : Dev nD) : W3 m ρ c (Proc.devRef .tc main_v3) = Cert.Spec.dstRow (m ((c : Thread nD τ).loc main_arg1)) :=
  (Host.keeps1_v3 (W2 m ρ c)).trans (at2_dst m ρ c)
theorem at3_arg4 (c : Dev nD) : W3 m ρ c (Proc.devRef .tc main_arg4) = m ((c : Thread nD τ).loc main_arg4) :=
  (Host.keeps1_arg4 (W2 m ρ c)).trans (at2_arg4 m ρ c)
theorem at3_arg5 (c : Dev nD) : W3 m ρ c (Proc.devRef .tc main_arg5) = m ((c : Thread nD τ).loc main_arg5) :=
  (Host.keeps1_arg5 (W2 m ρ c)).trans (at2_arg5 m ρ c)

/-! ## Boundary 4: after the second launch -/

/-- The first layer's output. -/
abbrev layer1 (c : Dev nD) : FVec Ideal S50000x128 .f32 :=
  Cert.Spec.addRowRelu (layer1Sum m c) (Cert.Spec.asRow (m ((c : Thread nD τ).loc main_arg3)))

theorem at4_layer1 (c : Dev nD) : W4 m ρ c (Proc.devRef .tc main_v44) = layer1 m c :=
  (W4_arr m ρ c 2).trans ((BiasMax.final (V3 m ρ) c).trans
    (congrArg₂ Cert.Spec.addRowRelu (at3_sum m ρ c) (at3_row m ρ c)))
theorem at4_src (c : Dev nD) : W4 m ρ c (Proc.devRef .tc main_v1) = Cert.Spec.srcRow (m ((c : Thread nD τ).loc main_arg1)) :=
  (W4_of_ne m ρ c main_v1 (by decide)).trans (at3_src m ρ c)
theorem at4_dst (c : Dev nD) : W4 m ρ c (Proc.devRef .tc main_v3) = Cert.Spec.dstRow (m ((c : Thread nD τ).loc main_arg1)) :=
  (W4_of_ne m ρ c main_v3 (by decide)).trans (at3_dst m ρ c)
theorem at4_arg4 (c : Dev nD) : W4 m ρ c (Proc.devRef .tc main_arg4) = m ((c : Thread nD τ).loc main_arg4) :=
  (W4_of_ne m ρ c main_arg4 (by decide)).trans (at3_arg4 m ρ c)
theorem at4_arg5 (c : Dev nD) : W4 m ρ c (Proc.devRef .tc main_arg5) = m ((c : Thread nD τ).loc main_arg5) :=
  (W4_of_ne m ρ c main_arg5 (by decide)).trans (at3_arg5 m ρ c)

/-! ## Boundary 5: after the third launch -/

theorem at5_product (c : Dev nD) : W5 m ρ c (Proc.devRef .tc main_v45)
    = Cert.Spec.dense 50000 128 128 (layer1 m c) (m ((c : Thread nD τ).loc main_arg4)) :=
  (W5_arr m ρ c 2).trans ((Product2.final (V4 m ρ) c).trans
    (congrArg₂ (Cert.Spec.dense 50000 128 128) (at4_layer1 m ρ c) (at4_arg4 m ρ c)))
theorem at5_src (c : Dev nD) : W5 m ρ c (Proc.devRef .tc main_v1) = Cert.Spec.srcRow (m ((c : Thread nD τ).loc main_arg1)) :=
  (W5_of_ne m ρ c main_v1 (by decide)).trans (at4_src m ρ c)
theorem at5_dst (c : Dev nD) : W5 m ρ c (Proc.devRef .tc main_v3) = Cert.Spec.dstRow (m ((c : Thread nD τ).loc main_arg1)) :=
  (W5_of_ne m ρ c main_v3 (by decide)).trans (at4_dst m ρ c)
theorem at5_arg5 (c : Dev nD) : W5 m ρ c (Proc.devRef .tc main_arg5) = m ((c : Thread nD τ).loc main_arg5) :=
  (W5_of_ne m ρ c main_arg5 (by decide)).trans (at4_arg5 m ρ c)

/-! ## Boundary 6: after the second neighbourhood sum -/

theorem at6_sum (c : Dev nD) : W6 m ρ c (Proc.devRef .tc main_v83)
    = Cert.Spec.propagate (Cert.Spec.dense 50000 128 128 (layer1 m c) (m ((c : Thread nD τ).loc main_arg4)))
        (Cert.Spec.srcRow (m ((c : Thread nD τ).loc main_arg1))) (Cert.Spec.dstRow (m ((c : Thread nD τ).loc main_arg1))) :=
  (Host.sum2 (W5 m ρ c)).trans (by rw [at5_product m ρ c, at5_src m ρ c, at5_dst m ρ c])
theorem at6_row (c : Dev nD) : W6 m ρ c (Proc.devRef .tc main_v84) = Cert.Spec.asRow (m ((c : Thread nD τ).loc main_arg5)) :=
  (Host.row2 (W5 m ρ c)).trans (by rw [at5_arg5 m ρ c]; exact reshape_row _)

/-! ## Boundary 7: after the fourth launch -/

/-- The result array after the run is the network of the six arguments' launch contents. -/
theorem result_eq_net (c : Dev nD) : W7 m ρ c (Proc.devRef .tc main_v85)
    = Cert.Spec.net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W7_arr m ρ c 2).trans ((Bias.final (V6 m ρ) c).trans
    (congrArg₂ Cert.Spec.addRow (at6_sum m ρ c) (at6_row m ρ c)))

end Cert.KernelValue

end
-- ==== Proof.lean ====
/-
  A two-layer graph convolution against its reference, on the extended reals.

  Both programs compute, from node features `x`, an edge list and two weight matrices with their bias vectors,
    `z = A · relu(A · (x W₁) + b₁) W₂ + b₂`,
  where `A · h` is the symmetric-normalised neighbourhood sum over the edge list with a self-loop at every node
  (`Spec.propagate`). The kernel makes the two products and the two bias steps in four launches, each walking the 50000
  rows in 25 blocks of 2000, and leaves the neighbourhood sums to the same host operations the reference uses; the
  reference makes everything with host operations. Nothing distinguishes the two on the extended reals: a product
  accumulated into a zero array block by block, after a change of float format that is the identity there, is the plain
  sum over the shared axis, row block by row block the reference's one product; the bias added from a 1×128 row and the
  maximum with zero are the reference's broadcast sum and maximum entry by entry; and the neighbourhood sum is one chain
  of operations applied to equal arrays. No finiteness of the inputs is used.

  `Spec` states the network; `RefTerm` reads the reference's run as it; `LaunchProduct1`, `LaunchBiasMax`,
  `LaunchProduct2`, `LaunchBias` give each launch's result array as one function of its argument arrays;
  `HostStretches` reads the host operations between the launches; `KernelValue` follows the buffers from the launch
  memory to the result; `KernelRun` is the kernel's run with its result array named.
-/
import proofs.«163067_j40003325395140_1_alg».proof.Defs
import proofs.«163067_j40003325395140_1_alg».proof.Proof.Gen.Kernel
import proofs.«163067_j40003325395140_1_alg».proof.Proof.Gen.Kernel.Skeleton
import proofs.«163067_j40003325395140_1_alg».proof.Proof.Gen.Kernel.Launch
import proofs.«163067_j40003325395140_1_alg».proof.Proof.Gen.Kernel.Points
import proofs.«163067_j40003325395140_1_alg».proof.Proof.Gen.Kernel.Frame
import proofs.«163067_j40003325395140_1_alg».proof.Proof.Gen.KernelIdeal
import proofs.«163067_j40003325395140_1_alg».proof.Proof.Gen.KernelIdeal.Skeleton
import proofs.«163067_j40003325395140_1_alg».proof.Proof.Gen.KernelIdeal.Launch
import proofs.«163067_j40003325395140_1_alg».proof.Proof.Gen.KernelIdeal.Points
import proofs.«163067_j40003325395140_1_alg».proof.Proof.Gen.KernelIdeal.Frame
import proofs.«163067_j40003325395140_1_alg».proof.Proof.Gen.ReferenceIdeal
import proofs.«163067_j40003325395140_1_alg».proof.Proof.Gen.ReferenceIdeal.Run
import proofs.«163067_j40003325395140_1_alg».proof.Proof.Gen.Pre_finite_inputs
import proofs.«163067_j40003325395140_1_alg».proof.Proof.RefTerm
import proofs.«163067_j40003325395140_1_alg».proof.Proof.KernelRun
import proofs.«163067_j40003325395140_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the network of the arguments' launch contents, and the two launch memories
    agree on the arguments. -/
theorem algebraic : Cert.algebraic_KernelIdeal_ReferenceIdeal := by
  intro m ρ m' ρ' _ hagree
  refine ⟨fun c => Cert.Spec.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelValue.result_eq_net m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.RefBridge.result_eq_net, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
